-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S1024x2048 .f32) (main_arg7 : FVec F S1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S16x2048x1024 .f32) (main_arg1 : FVec F S2048x1024 .f32) (main_arg2 : FVec F S2048 .f32) (main_arg3 : FVec F S2048x2048 .f32) (main_arg4 : FVec F S2048 .f32) (main_arg5 : FVec F S2048 .f32) (main_arg6 : FVec F S1024x2048 .f32) (main_arg7 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S32768x1024 : Shape := ⟨2, ![32768, 1024]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩

abbrev nBuf : Space → Nat
  | .hbm => 21
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S32768x1024, .f32⟩
  | .hbm, ⟨9, _⟩ => ⟨S1024x2048, .f32⟩
  | .hbm, ⟨10, _⟩ => ⟨S1024x2048, .bf16⟩
  | .hbm, ⟨11, _⟩ => ⟨S2048x2048, .f32⟩
  | .hbm, ⟨12, _⟩ => ⟨S2048x2048, .bf16⟩
  | .hbm, ⟨13, _⟩ => ⟨S2048x1024, .f32⟩
  | .hbm, ⟨14, _⟩ => ⟨S2048x1024, .bf16⟩
  | .hbm, ⟨15, _⟩ => ⟨S1x2048, .f32⟩
  | .hbm, ⟨16, _⟩ => ⟨S2048, .f32⟩
  | .hbm, ⟨17, _⟩ => ⟨S1x2048, .f32⟩
  | .hbm, ⟨18, _⟩ => ⟨S1x1024, .f32⟩
  | .hbm, ⟨19, _⟩ => ⟨S32768x1024, .f32⟩
  | .hbm, ⟨20, _⟩ => ⟨S16x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S2048x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16x2048x1024_S32768x1024 : S16x2048x1024.ShapeCasts S32768x1024
  transposes_S2048x1024_S1024x2048_1_0 : S2048x1024.Transposes [1, 0] S1024x2048
  bitsLt_bf16_f32 : FTy.bits .bf16 < FTy.bits .f32
  transposes_S2048x2048_S2048x2048_1_0 : S2048x2048.Transposes [1, 0] S2048x2048
  transposes_S1024x2048_S2048x1024_1_0 : S1024x2048.Transposes [1, 0] S2048x1024
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S32768x1024_S16x2048x1024 : S32768x1024.ShapeCasts S16x2048x1024
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S2048x1024.size a
  hwx0_5 : ∀ i : grid0.Coords, EltTy.bits .bf16 = 32 ∨ (Rect.block (s := S2048x1024) S2048x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S32768x1024.size a
  hwx0_7 : ∀ i : grid0.Coords, EltTy.bits .f32 = 32 ∨ (Rect.block (s := S32768x1024) S256x1024.size (cc0_transform_7 i) (hinb0_7 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S16x2048x2048 : Shape := ⟨3, ![16, 2048, 2048]⟩
abbrev S1x1x2048 : Shape := ⟨3, ![1, 1, 2048]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S2048x1024, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S16x2048x2048, .f32⟩
  | .hbm, ⟨9, _⟩ => ⟨S1x1x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x2048x2048, .f32⟩
  | .hbm, ⟨24, _⟩ => ⟨S16x2048x2048, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S16x2048x2048_0_1_2 : S1x1x2048.BroadcastsInDim S16x2048x2048 (![0, 1, 2] : Fin 3 → Fin S16x2048x2048.rank)
  bcast_S_S16x2048x2048 : S_.BroadcastsInDim S16x2048x2048 (![] : Fin 0 → Fin S16x2048x2048.rank)
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  dot_S16x2048x1024_S2048x1024_S16x2048x2048_2_1_01_0_n_n_wf : DotDims.WF S16x2048x1024 S2048x1024 S16x2048x2048 [2] [1] [0, 1] [0] [] []
  dot_S16x2048x2048_S2048x2048_S16x2048x2048_2_1_01_0_n_n_wf : DotDims.WF S16x2048x2048 S2048x2048 S16x2048x2048 [2] [1] [0, 1] [0] [] []
  dot_S16x2048x2048_S1024x2048_S16x2048x1024_2_1_01_0_n_n_wf : DotDims.WF S16x2048x2048 S1024x2048 S16x2048x1024 [2] [1] [0, 1] [0] [] []

variable [Facts₀]

def dot_S16x2048x1024_S2048x1024_S16x2048x2048_2_1_01_0_n_n : DotDims S16x2048x1024 S2048x1024 S16x2048x2048 where
  lhsContracting := [2]
  rhsContracting := [1]
  lhsNonContracting := [0, 1]
  rhsNonContracting := [0]
  lhsBatch := []
  rhsBatch := []
  wf := dot_S16x2048x1024_S2048x1024_S16x2048x2048_2_1_01_0_n_n_wf
def dot_S16x2048x2048_S2048x2048_S16x2048x2048_2_1_01_0_n_n : DotDims S16x2048x2048 S2048x2048 S16x2048x2048 where
  lhsContracting := [2]
  rhsContracting := [1]
  lhsNonContracting := [0, 1]
  rhsNonContracting := [0]
  lhsBatch := []
  rhsBatch := []
  wf := dot_S16x2048x2048_S2048x2048_S16x2048x2048_2_1_01_0_n_n_wf
def dot_S16x2048x2048_S1024x2048_S16x2048x1024_2_1_01_0_n_n : DotDims S16x2048x2048 S1024x2048 S16x2048x1024 where
  lhsContracting := [2]
  rhsContracting := [1]
  lhsNonContracting := [0, 1]
  rhsNonContracting := [0]
  lhsBatch := []
  rhsBatch := []
  wf := dot_S16x2048x2048_S1024x2048_S16x2048x1024_2_1_01_0_n_n_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.RowNet.lean ====
/-
  The network one row at a time, over the extended reals.

  A row of 1024 inputs is taken through three affine layers, the first two followed by the maximum with zero:
    hidden j  = max (Σ_i row i · wIn i j + bIn j) 0            (2048 values)
    recur g   = max (Σ_j hidden j · wRec j g + bRec g) 0        (2048 values)
    readout a = Σ_g recur g · wOut g a + bOut a                 (1024 values)
  Every row of the batch goes through the same three layers independently of the other rows, so the whole result
  array is this function applied to each row. The weights are written here as "input coordinate first, output
  coordinate second"; a program that stores a weight matrix the other way round reads it transposed.
  The zero of the two maxima is kept as the value of the all-zero 32-bit pattern, the way both programs spell it.
-/
import Idealize.ShloMosaic.PureOps.Ideal
import Idealize.ShloMosaic.PureOps.Ideal.Laws
import Idealize.ShloMosaic.Lib.ValueIdx

noncomputable section

open scoped BigOperators

namespace Cert.RowNet

open Idealize.ShloMosaic Idealize.ShloMosaic.ValueIdx

/-- The first layer at hidden unit `j`: the row's inner product with column `j` of the input weights, plus the bias,
    cut off below at zero. -/
def hidden (row : Fin 1024 → EReal) (wIn : Fin 1024 → Fin 2048 → EReal) (bIn : Fin 2048 → EReal) (j : Fin 2048) : EReal :=
  max ((∑ i : Fin 1024, row i * wIn i j) + bIn j) (Ideal.ofBits .f32 0x00000000#32)

/-- The second layer at unit `g`: the hidden vector's inner product with column `g` of the recurrent-input weights,
    plus the (combined) bias, cut off below at zero. -/
def recur (h : Fin 2048 → EReal) (wRec : Fin 2048 → Fin 2048 → EReal) (bRec : Fin 2048 → EReal) (g : Fin 2048) : EReal :=
  max ((∑ j : Fin 2048, h j * wRec j g) + bRec g) (Ideal.ofBits .f32 0x00000000#32)

/-- The last layer at output `a`: an inner product plus a bias, with no cut-off. -/
def readout (o : Fin 2048 → EReal) (wOut : Fin 2048 → Fin 1024 → EReal) (bOut : Fin 1024 → EReal) (a : Fin 1024) : EReal :=
  (∑ g : Fin 2048, o g * wOut g a) + bOut a

/-- The three layers composed: output `a` of one row. -/
def net (row : Fin 1024 → EReal) (wIn : Fin 1024 → Fin 2048 → EReal) (bIn : Fin 2048 → EReal)
    (wRec : Fin 2048 → Fin 2048 → EReal) (bRec : Fin 2048 → EReal)
    (wOut : Fin 2048 → Fin 1024 → EReal) (bOut : Fin 1024 → EReal) (a : Fin 1024) : EReal :=
  readout (recur (hidden row wIn bIn) wRec bRec) wOut bOut a

/-- The whole result, from the eight argument arrays as the caller passes them: entry (b, s, a) is output `a` of the
    network on row (b, s) of `x`. The three weight matrices are stored "output coordinate first", so each is read
    transposed; the second layer's bias is the sum of the two bias vectors. -/
def G (x : FVec Ideal ⟨3, ![16, 2048, 1024]⟩ .f32) (wInit : FVec Ideal ⟨2, ![2048, 1024]⟩ .f32) (bInit : FVec Ideal ⟨1, ![2048]⟩ .f32)
    (wIh : FVec Ideal ⟨2, ![2048, 2048]⟩ .f32) (bIh bHh : FVec Ideal ⟨1, ![2048]⟩ .f32)
    (wFinal : FVec Ideal ⟨2, ![1024, 2048]⟩ .f32) (bFinal : FVec Ideal ⟨1, ![1024]⟩ .f32) :
    FVec Ideal ⟨3, ![16, 2048, 1024]⟩ .f32 := fun i =>
  net (fun k => x (ix3 (i 0) (i 1) k)) (fun k j => wInit (ix2 j k)) (fun j => bInit (ix1 j))
    (fun j g => wIh (ix2 g j)) (fun g => bIh (ix1 g) + bHh (ix1 g))
    (fun g a => wFinal (ix2 a g)) (fun a => bFinal (ix1 a)) (i 2)

/-- Two evaluations of the network agree when they are given the same row, weights, biases and output coordinate. -/
theorem net_congr {row row' : Fin 1024 → EReal} {wIn wIn' : Fin 1024 → Fin 2048 → EReal} {bIn bIn' : Fin 2048 → EReal}
    {wRec wRec' : Fin 2048 → Fin 2048 → EReal} {bRec bRec' : Fin 2048 → EReal}
    {wOut wOut' : Fin 2048 → Fin 1024 → EReal} {bOut bOut' : Fin 1024 → EReal} {a a' : Fin 1024}
    (h0 : ∀ i, row i = row' i) (h1 : ∀ i j, wIn i j = wIn' i j) (h2 : ∀ j, bIn j = bIn' j)
    (h3 : ∀ j g, wRec j g = wRec' j g) (h4 : ∀ g, bRec g = bRec' g)
    (h5 : ∀ g a, wOut g a = wOut' g a) (h6 : ∀ a, bOut a = bOut' a) (h7 : a = a') :
    net row wIn bIn wRec bRec wOut bOut a = net row' wIn' bIn' wRec' bRec' wOut' bOut' a' := by
  have e0 : row = row' := funext h0
  have e1 : wIn = wIn' := funext fun i => funext (h1 i)
  have e2 : bIn = bIn' := funext h2
  have e3 : wRec = wRec' := funext fun j => funext (h3 j)
  have e4 : bRec = bRec' := funext h4
  have e5 : wOut = wOut' := funext fun g => funext (h5 g)
  have e6 : bOut = bOut' := funext h6
  rw [e0, e1, e2, e3, e4, e5, e6, h7]

end Cert.RowNet

end
-- ==== Proof.Payload.lean ====
/-
  The kernel body's arithmetic at one entry of its output block.

  At a grid point the body holds a block of 256 rows of the (flattened) input, the three weight matrices whole and
  already transposed ("input coordinate first"), and the three biases as one-row matrices. It forms
  three matrix products into zero accumulators, adds the bias row to every row, and takes the maximum with zero after
  the first two. Narrowing a value to a shorter float format and back changes nothing over the extended reals. So entry
  (p, q) of what it stores is output `q` of the three-layer network applied to row `p` of the block.
-/
import proofs.«114582_j7885559955596_1_alg».proof.Proof.Gen.KernelIdeal.Skeleton
import proofs.«114582_j7885559955596_1_alg».proof.Proof.LibDot
import proofs.«114582_j7885559955596_1_alg».proof.Proof.RowNet
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx Cert.RowNet

/-- A one-row matrix of 2048 columns repeated down 256 rows reads, at (p, j), the row's entry `j`. -/
theorem biasRow2048_at (v : FVec Ideal S1x2048 .f32) (p : Fin 256) (j : Fin 2048) :
    broadcastTo S256x2048 v broadcasts_S1x2048_S256x2048 (ix2 p j) = v (ix2 0 j) :=
  broadcastTo_apply v broadcasts_S1x2048_S256x2048 (ix2 p j) (ix2 0 j) (fun a => match a with
    | ⟨0, _⟩ => by show (0 : Nat) = if (1 : Nat) = 1 then 0 else p.val; rw [if_pos rfl]
    | ⟨1, _⟩ => by show j.val = if (2048 : Nat) = 1 then 0 else j.val; rw [if_neg (by decide)])

/-- A one-row matrix of 1024 columns repeated down 256 rows reads, at (p, q), the row's entry `q`. -/
theorem biasRow1024_at (v : FVec Ideal S1x1024 .f32) (p : Fin 256) (q : Fin 1024) :
    broadcastTo S256x1024 v broadcasts_S1x1024_S256x1024 (ix2 p q) = v (ix2 0 q) :=
  broadcastTo_apply v broadcasts_S1x1024_S256x1024 (ix2 p q) (ix2 0 q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- The first layer on a block: product with the input weights into zero, plus the bias row, maximum with zero. -/
theorem layer1_at (x : FVec Ideal S256x1024 .bf16) (w : FVec Ideal S1024x2048 .bf16) (b : FVec Ideal S1x2048 .f32)
    (p : Fin 256) (j : Fin 2048) :
    maximumf (addf (matmul dot_S256x1024_S1024x2048_S256x2048_1_0_0_1_n_n none x w (constant S256x2048 .f32 0x00000000#32))
        (broadcastTo S256x2048 b broadcasts_S1x2048_S256x2048))
      (broadcast S256x2048 (Scalar.ofBits (F := Ideal) .f32 0x00000000#32)) (ix2 p j)
    = hidden (fun i => x (ix2 p i)) (fun i j => w (ix2 i j)) (fun j => b (ix2 0 j)) j := by
  rw [maximumf_apply, addf_apply, biasRow2048_at]
  dsimp only [matmul]
  rw [Cert.LibDot.matmul_zero_at _ rfl rfl rfl rfl rfl rfl]
  rfl

/-- The second layer on a block of hidden values. -/
theorem layer2_at (h : FVec Ideal S256x2048 .bf16) (w : FVec Ideal S2048x2048 .bf16) (b : FVec Ideal S1x2048 .f32)
    (p : Fin 256) (g : Fin 2048) :
    maximumf (addf (matmul dot_S256x2048_S2048x2048_S256x2048_1_0_0_1_n_n none h w (constant S256x2048 .f32 0x00000000#32))
        (broadcastTo S256x2048 b broadcasts_S1x2048_S256x2048))
      (broadcast S256x2048 (Scalar.ofBits (F := Ideal) .f32 0x00000000#32)) (ix2 p g)
    = recur (fun j => h (ix2 p j)) (fun j g => w (ix2 j g)) (fun g => b (ix2 0 g)) g := by
  rw [maximumf_apply, addf_apply, biasRow2048_at]
  dsimp only [matmul]
  rw [Cert.LibDot.matmul_zero_at _ rfl rfl rfl rfl rfl rfl]
  rfl

/-- The last layer on a block. -/
theorem layer3_at (o : FVec Ideal S256x2048 .bf16) (w : FVec Ideal S2048x1024 .bf16) (b : FVec Ideal S1x1024 .f32)
    (p : Fin 256) (q : Fin 1024) :
    addf (matmul dot_S256x2048_S2048x1024_S256x1024_1_0_0_1_n_n none o w (constant S256x1024 .f32 0x00000000#32))
        (broadcastTo S256x1024 b broadcasts_S1x1024_S256x1024) (ix2 p q)
    = readout (fun g => o (ix2 p g)) (fun g a => w (ix2 g a)) (fun a => b (ix2 0 a)) q := by
  rw [addf_apply, biasRow1024_at]
  dsimp only [matmul]
  rw [Cert.LibDot.matmul_zero_at _ rfl rfl rfl rfl rfl rfl]
  rfl

/-- Entry `y` of the block the body stores is output `y 1` of the network on row `y 0` of the input block. -/
theorem pay_at (x0 : Vec Ideal S256x1024 .f32) (x1 : Vec Ideal S1024x2048 .bf16) (x2 : Vec Ideal S1x2048 .f32)
    (x3 : Vec Ideal S2048x2048 .bf16) (x4 : Vec Ideal S1x2048 .f32) (x5 : Vec Ideal S2048x1024 .bf16)
    (x6 : Vec Ideal S1x1024 .f32) (y : S256x1024.Idx) :
    k0_pay1 (F := Ideal) x0 x1 x2 x3 x4 x5 x6 y
      = net (fun i => x0 (ix2 (y 0) i)) (fun i j => x1 (ix2 i j)) (fun j => x2 (ix2 0 j))
          (fun j g => x3 (ix2 j g)) (fun g => x4 (ix2 0 g)) (fun g a => x5 (ix2 g a)) (fun a => x6 (ix2 0 a)) (y 1) := by
  obtain ⟨p, q, rfl⟩ : ∃ (p : Fin 256) (q : Fin 1024), y = ix2 p q := ⟨y 0, y 1, eq_ix2 y⟩
  unfold k0_pay1
  simp only [shapeCast_self]
  refine (layer3_at _ _ _ p q).trans ?_
  unfold net
  refine congrArg (fun o => readout o (fun g a => x5 (ix2 g a)) (fun a => x6 (ix2 0 a)) q) (funext fun g => ?_)
  refine (layer2_at _ _ _ p g).trans ?_
  refine congrArg (fun h => recur h (fun j g => x3 (ix2 j g)) (fun g => x4 (ix2 0 g)) g) (funext fun j => ?_)
  exact layer1_at _ _ _ p j

end Cert.KernelIdeal.Payload

end
-- ==== Proof.Blocks.lean ====
/-
  From blocks to the array: what the kernel region leaves in its result array.

  The region runs over 128 grid points. At point `t` it is handed rows 256·t … 256·t + 255 of the flattened input (all
  1024 columns), and the whole of every weight matrix and bias row (those windows do not move with `t`); it writes
  back rows 256·t … 256·t + 255 of the flattened result. By the payload lemma, entry (p, q) of the block written at
  point `t` is output `q` of the network on row `p` of the block read, which is row 256·t + p of the flattened input.
  So every written block is the restriction of ONE function of the arrays the region finds — "row r of the result is
  the network on row r of the input" — and the 128 blocks cover all 32768 rows (row r lies in block r / 256), so the
  result array ends holding that function.
-/
import proofs.«114582_j7885559955596_1_alg».proof.Proof.Gen.KernelIdeal.Frame
import proofs.«114582_j7885559955596_1_alg».proof.Proof.Payload
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.RowNet

variable (m : (ℓ : Loc nD τ sig) → Buf (Elt Ideal) ℓ)

/-- The flattened result as one function of the seven arrays the region reads: row `r`, column `a` is output `a` of
    the network on row `r` of the flattened input, the weights read as stored (input coordinate first) and each bias
    read off its single row. -/
def rowsNet (xf : FVec Ideal S32768x1024 .f32) (w1 : FVec Ideal S1024x2048 .bf16) (b1 : FVec Ideal S1x2048 .f32)
    (w2 : FVec Ideal S2048x2048 .bf16) (b2 : FVec Ideal S1x2048 .f32) (w3 : FVec Ideal S2048x1024 .bf16)
    (b3 : FVec Ideal S1x1024 .f32) : FVec Ideal S32768x1024 .f32 := fun i =>
  net (fun k => xf (ix2 (i 0) k)) (fun k j => w1 (ix2 k j)) (fun j => b1 (ix2 0 j))
    (fun j g => w2 (ix2 j g)) (fun g => b2 (ix2 0 g)) (fun g a => w3 (ix2 g a)) (fun a => b3 (ix2 0 a)) (i 1)

theorem hz : (![0, 0] : Fin 2 → Nat) = fun _ => 0 := funext fun a => by fin_cases a <;> rfl

/-- The block index maps over the grid: the input and the result move down one block of rows per point and stay at
    column block 0; every weight and bias window stays at block (0, 0). -/
theorem idx_facts : ∀ t : Fin cfg0.N,
    (win0_0.index t (0 : Fin 2) = t.val ∧ win0_0.index t (1 : Fin 2) = 0)
    ∧ (win0_7.index t (0 : Fin 2) = t.val ∧ win0_7.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The input block at point `t`, entry (p, i), is entry (256·t + p, i) of the flattened input. -/
theorem xblock_at (c : Dev nD) (t : Fin cfg0.N) (p : Fin 256) (i : Fin 1024) (r : Fin 32768) (hr : r.val = 256 * t.val + p.val) :
    (iblk m c 0 t : Vec Ideal S256x1024 .f32) (ix2 p i) = (V m c main_v0 : S32768x1024.Idx → Elt Ideal .f32) (ix2 r i) := by
  obtain ⟨⟨e0, e1⟩, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = r.val; rw [e0, hr]; omega
  | ⟨1, _⟩ => show win0_0.index t (1 : Fin 2) * 1024 + 1 * i.val = i.val; rw [e1]; omega

/-- A weight or bias window does not move: its block at any point is the whole array the region finds. -/
theorem w1block_eq (c : Dev nD) (t : Fin cfg0.N) (y : S1024x2048.Idx) :
    (iblk m c 1 t : Vec Ideal S1024x2048 .bf16) y = (V m c main_v2 : S1024x2048.Idx → Elt Ideal .bf16) y := by
  obtain ⟨-, -, ⟨e0, e1⟩, -⟩ := idx_facts t
  unfold iblk
  rw [View.read_apply]
  show V m c main_v2 _ = V m c main_v2 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 2048 + 1 * (y 1).val = (y 1).val; rw [e1]; omega

theorem b1block_eq (c : Dev nD) (t : Fin cfg0.N) (y : S1x2048.Idx) :
    (iblk m c 2 t : Vec Ideal S1x2048 .f32) y = (V m c main_v7 : S1x2048.Idx → Elt Ideal .f32) y := by
  obtain ⟨-, -, -, ⟨e0, e1⟩, -⟩ := idx_facts t
  unfold iblk
  rw [View.read_apply]
  show V m c main_v7 _ = V m c main_v7 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 2048 + 1 * (y 1).val = (y 1).val; rw [e1]; omega

theorem w2block_eq (c : Dev nD) (t : Fin cfg0.N) (y : S2048x2048.Idx) :
    (iblk m c 3 t : Vec Ideal S2048x2048 .bf16) y = (V m c main_v4 : S2048x2048.Idx → Elt Ideal .bf16) y := by
  obtain ⟨-, -, -, -, ⟨e0, e1⟩, -⟩ := idx_facts t
  unfold iblk
  rw [View.read_apply]
  show V m c main_v4 _ = V m c main_v4 _
  congr 1
  funext a
  apply Fin.ext
  match a with
  | ⟨0, _⟩ => show win0_3.index t (0 : Fin 2) * 2048 + 1 * (y 0).val = (y 0).val; rw [e0]; omega
  | ⟨1, _⟩ => show win0_3.index t (1 : Fin 2) * 2048 + 1 * (y 1).val = (y 1).val; rw [e1]; omega

theorem b2block_eq (c : Dev nD) (t : Fin cfg0.N) (y : S1x2048.Idx) :
    (iblk m c 4 t : Vec Ideal S1x2048 .f32) y = (V m c main_v9 : S1x2048.Idx → Elt Ideal .f32) y := by
  obtain ⟨-, -, -, -, -, ⟨e0, e1⟩, -⟩ := idx_facts t
  unfold iblk
  rw [View.read_apply]
  show V m c main_v9 _ = V m c main_v9 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 2048 + 1 * (y 1).val = (y 1).val; rw [e1]; omega

theorem w3block_eq (c : Dev nD) (t : Fin cfg0.N) (y : S2048x1024.Idx) :
    (iblk m c 5 t : Vec Ideal S2048x1024 .bf16) y = (V m c main_v6 : S2048x1024.Idx → Elt Ideal .bf16) y := by
  obtain ⟨-, -, -, -, -, -, ⟨e0, e1⟩, -⟩ := idx_facts t
  unfold iblk
  rw [View.read_apply]
  show V m c main_v6 _ = V m c main_v6 _
  congr 1
  funext a
  apply Fin.ext
  match a with
  | ⟨0, _⟩ => show win0_5.index t (0 : Fin 2) * 2048 + 1 * (y 0).val = (y 0).val; rw [e0]; omega
  | ⟨1, _⟩ => show win0_5.index t (1 : Fin 2) * 1024 + 1 * (y 1).val = (y 1).val; rw [e1]; omega

theorem b3block_eq (c : Dev nD) (t : Fin cfg0.N) (y : S1x1024.Idx) :
    (iblk m c 6 t : Vec Ideal S1x1024 .f32) y = (V m c main_v10 : S1x1024.Idx → Elt Ideal .f32) y := by
  obtain ⟨-, -, -, -, -, -, -, ⟨e0, e1⟩⟩ := idx_facts t
  unfold iblk
  rw [View.read_apply]
  show V m c main_v10 _ = V m c main_v10 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 1024 + 1 * (y 1).val = (y 1).val; rw [e1]; omega

/-- WHAT POINT `t` WRITES BACK is block `t` of `rowsNet` of the arrays the region finds. -/
theorem flushed_eq (c : Dev nD) (t : Fin cfg0.N) :
    (dats m 0 c).flushed 7 t = ((cfg0.win 7).blk t).view.read (Elt Ideal)
      (rowsNet (V m c main_v0) (V m c main_v2) (V m c main_v7) (V m c main_v4) (V m c main_v9) (V m c main_v6) (V m c main_v10)) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x2048) hz, View.ld_unit_zero (S := S1x2048) hz,
    View.ld_unit_zero (S := S2048x2048) hz, View.ld_unit_zero (S := S2048x1024) hz, View.ld_unit_zero (S := S1x1024) hz]
  obtain ⟨-, ⟨e0, e1⟩, -⟩ := idx_facts t
  funext j
  rw [View.read_apply]
  refine (Cert.KernelIdeal.Payload.pay_at (iblk m c 0 t) (iblk m c 1 t) (iblk m c 2 t) (iblk m c 3 t) (iblk m c 4 t) (iblk m c 5 t) (iblk m c 6 t) j).trans ?_
  unfold rowsNet
  refine net_congr (fun i => ?_) (fun i jj => ?_) (fun jj => ?_) (fun jj g => ?_) (fun g => ?_) (fun g a => ?_) (fun a => ?_) ?_
  · refine xblock_at m c t (j 0) i _ ?_
    show win0_7.index t (0 : Fin 2) * 256 + 1 * (j 0).val = 256 * t.val + (j 0).val
    rw [e0]; omega
  · exact w1block_eq m c t _
  · exact b1block_eq m c t _
  · exact w2block_eq m c t _
  · exact b2block_eq m c t _
  · exact w3block_eq m c t _
  · exact b3block_eq m c t _
  · apply Fin.ext
    show (j 1).val = win0_7.index t (1 : Fin 2) * 1024 + 1 * (j 1).val
    rw [e1]; omega

/-- An index of the flattened result is in point `t`'s block iff each coordinate is in the block's range on its axis. -/
theorem mem_blk (t : Fin cfg0.N) (i : S32768x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v11).slice (win0_7.rect t)).set ↔ _
  rw [View.set_slice_whole, Rect.mem_set_unit]
  exact Iff.rfl

/-- Every entry of the flattened result is written: row `r` lies in the block of point `r / 256`. -/
theorem covered (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  have hN : cfg0.N = 128 := N_0
  refine ⟨⟨(i 0).val / 256, by rw [hN]; omega⟩, flush0_7 _, ?_⟩
  obtain ⟨-, ⟨e0, e1⟩, -⟩ := idx_facts ⟨(i 0).val / 256, by rw [hN]; omega⟩
  rw [mem_blk]
  intro a
  match a with
  | ⟨0, _⟩ =>
    show win0_7.index ⟨(i 0).val / 256, _⟩ (0 : Fin 2) * 256 ≤ (i 0).val ∧ (i 0).val < win0_7.index ⟨(i 0).val / 256, _⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, _⟩ (1 : Fin 2) * 1024 ≤ (i 1).val ∧ (i 1).val < win0_7.index ⟨(i 0).val / 256, _⟩ (1 : Fin 2) * 1024 + 1024
    rw [e1]; omega

/-- THE FLATTENED RESULT after the region: `rowsNet` of the arrays the region finds. -/
theorem final (c : Dev nD) : (dats m 0 c).arrAt 7 cfg0.N
    = rowsNet (V m c main_v0) (V m c main_v2) (V m c main_v7) (V m c main_v4) (V m c main_v9) (V m c main_v6) (V m c main_v10) :=
  (dats m 0 c).arrAt_eq_of_cover 7 _ (fun t _ => flushed_eq m c t) (covered)

end Cert.KernelIdeal.Blocks

end
-- ==== Proof.EntryArrays.lean ====
/-
  The arrays the kernel region finds, read entry by entry.

  Before the region the program reshapes `x` from [16, 2048, 1024] to [32768, 1024] (row b·2048 + s of the flat
  array is row (b, s) of `x`), transposes each weight matrix and narrows it to a shorter float format (the identity
  over the extended reals), reshapes each bias vector to a single row, and adds the two second-layer biases
  before reshaping their sum.
-/
import proofs.«114582_j7885559955596_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem

namespace Cert.KernelIdeal.Entry

open Cert.KernelIdeal Cert.KernelIdeal.Gen Idealize.ShloMosaic.ValueIdx

variable (m : (ℓ : Loc nD τ sig) → Buf (Elt Ideal) ℓ)

/-! ## The eight argument arrays, each at its literal shape -/

abbrev argX (c : Dev nD) : FVec Ideal S16x2048x1024 .f32 := m ((c : Thread nD τ).loc main_arg0)
abbrev argWInit (c : Dev nD) : FVec Ideal S2048x1024 .f32 := m ((c : Thread nD τ).loc main_arg1)
abbrev argBInit (c : Dev nD) : FVec Ideal S2048 .f32 := m ((c : Thread nD τ).loc main_arg2)
abbrev argWIh (c : Dev nD) : FVec Ideal S2048x2048 .f32 := m ((c : Thread nD τ).loc main_arg3)
abbrev argBIh (c : Dev nD) : FVec Ideal S2048 .f32 := m ((c : Thread nD τ).loc main_arg4)
abbrev argBHh (c : Dev nD) : FVec Ideal S2048 .f32 := m ((c : Thread nD τ).loc main_arg5)
abbrev argWFinal (c : Dev nD) : FVec Ideal S1024x2048 .f32 := m ((c : Thread nD τ).loc main_arg6)
abbrev argBFinal (c : Dev nD) : FVec Ideal S1024 .f32 := m ((c : Thread nD τ).loc main_arg7)

/-! ## Each array the region reads, as the term of the operations that wrote it -/

theorem xflat_eq (c : Dev nD) : (V m c main_v0 : FVec Ideal S32768x1024 .f32)
    = shapeCast S32768x1024 (argX m c) shapeCasts_S16x2048x1024_S32768x1024 := by
  show StableHlo.after hostOps0 (fun b => m (c, b)) (Proc.devRef .tc main_v0) = _
  after_results <;> rfl

theorem w1_eq (c : Dev nD) : (V m c main_v2 : FVec Ideal S1024x2048 .bf16)
    = truncf (F := Ideal) .bf16 (transpose S1024x2048 [1, 0] (argWInit m c) transposes_S2048x1024_S1024x2048_1_0) bitsLt_bf16_f32 := by
  show StableHlo.after hostOps0 (fun b => m (c, b)) (Proc.devRef .tc main_v2) = _
  after_results <;> rfl

theorem b1_eq (c : Dev nD) : (V m c main_v7 : FVec Ideal S1x2048 .f32)
    = shapeCast S1x2048 (argBInit m c) shapeCasts_S2048_S1x2048 := by
  show StableHlo.after hostOps0 (fun b => m (c, b)) (Proc.devRef .tc main_v7) = _
  after_results <;> rfl

theorem w2_eq (c : Dev nD) : (V m c main_v4 : FVec Ideal S2048x2048 .bf16)
    = truncf (F := Ideal) .bf16 (transpose S2048x2048 [1, 0] (argWIh m c) transposes_S2048x2048_S2048x2048_1_0) bitsLt_bf16_f32 := by
  show StableHlo.after hostOps0 (fun b => m (c, b)) (Proc.devRef .tc main_v4) = _
  after_results <;> rfl

theorem b2_eq (c : Dev nD) : (V m c main_v9 : FVec Ideal S1x2048 .f32)
    = shapeCast S1x2048 (addf (F := Ideal) (argBIh m c) (argBHh m c)) shapeCasts_S2048_S1x2048 := by
  show StableHlo.after hostOps0 (fun b => m (c, b)) (Proc.devRef .tc main_v9) = _
  after_results <;> rfl

theorem w3_eq (c : Dev nD) : (V m c main_v6 : FVec Ideal S2048x1024 .bf16)
    = truncf (F := Ideal) .bf16 (transpose S2048x1024 [1, 0] (argWFinal m c) transposes_S1024x2048_S2048x1024_1_0) bitsLt_bf16_f32 := by
  show StableHlo.after hostOps0 (fun b => m (c, b)) (Proc.devRef .tc main_v6) = _
  after_results <;> rfl

theorem b3_eq (c : Dev nD) : (V m c main_v10 : FVec Ideal S1x1024 .f32)
    = shapeCast S1x1024 (argBFinal m c) shapeCasts_S1024_S1x1024 := by
  show StableHlo.after hostOps0 (fun b => m (c, b)) (Proc.devRef .tc main_v10) = _
  after_results <;> rfl

/-! ## Read at an entry -/

/-- Row b·2048 + s of the flattened input is row (b, s) of `x`. -/
theorem xflat_at (c : Dev nD) (b : Fin 16) (s : Fin 2048) (k : Fin 1024) (r : Fin 32768) (hr : r.val = b.val * 2048 + s.val) :
    (V m c main_v0 : FVec Ideal S32768x1024 .f32) (ix2 r k) = argX m c (ix3 b s k) := by
  rw [xflat_eq]
  refine shapeCast_apply _ _ (ix2 r k) (ix3 b s k) ?_
  rw [Shape.rowMajor_val_three, Shape.rowMajor_val_two]
  show (b.val * 2048 + s.val) * 1024 + k.val = r.val * 1024 + k.val
  rw [hr]

/-- The first weight matrix as the region finds it, at (k, j), is the caller's at (j, k). -/
theorem w1_at (c : Dev nD) (k : Fin 1024) (j : Fin 2048) :
    (V m c main_v2 : FVec Ideal S1024x2048 .bf16) (ix2 k j) = argWInit m c (ix2 j k) := by
  rw [w1_eq]
  show transpose S1024x2048 [1, 0] (argWInit m c) transposes_S2048x1024_S1024x2048_1_0 (ix2 k j) = _
  exact transpose_apply _ _ _ (ix2 k j) (ix2 j k) (fun b => match b with | ⟨0, _⟩ => rfl | ⟨1, _⟩ => rfl)

/-- The second weight matrix, at (j, g), is the caller's at (g, j). -/
theorem w2_at (c : Dev nD) (j : Fin 2048) (g : Fin 2048) :
    (V m c main_v4 : FVec Ideal S2048x2048 .bf16) (ix2 j g) = argWIh m c (ix2 g j) := by
  rw [w2_eq]
  show transpose S2048x2048 [1, 0] (argWIh m c) transposes_S2048x2048_S2048x2048_1_0 (ix2 j g) = _
  exact transpose_apply _ _ _ (ix2 j g) (ix2 g j) (fun b => match b with | ⟨0, _⟩ => rfl | ⟨1, _⟩ => rfl)

/-- The third weight matrix, at (g, a), is the caller's at (a, g). -/
theorem w3_at (c : Dev nD) (g : Fin 2048) (a : Fin 1024) :
    (V m c main_v6 : FVec Ideal S2048x1024 .bf16) (ix2 g a) = argWFinal m c (ix2 a g) := by
  rw [w3_eq]
  show transpose S2048x1024 [1, 0] (argWFinal m c) transposes_S1024x2048_S2048x1024_1_0 (ix2 g a) = _
  exact transpose_apply _ _ _ (ix2 g a) (ix2 a g) (fun b => match b with | ⟨0, _⟩ => rfl | ⟨1, _⟩ => rfl)

/-- The first bias row at column `j` is the caller's bias at `j`. -/
theorem b1_at (c : Dev nD) (j : Fin 2048) :
    (V m c main_v7 : FVec Ideal S1x2048 .f32) (ix2 0 j) = argBInit m c (ix1 j) := by
  rw [b1_eq]
  refine shapeCast_apply _ _ (ix2 0 j) (ix1 j) ?_
  rw [Shape.rowMajor_val_one, Shape.rowMajor_val_two]
  show j.val = 0 * 2048 + j.val
  omega

/-- The second bias row at column `g` is the sum of the caller's two second-layer biases at `g`. -/
theorem b2_at (c : Dev nD) (g : Fin 2048) :
    (V m c main_v9 : FVec Ideal S1x2048 .f32) (ix2 0 g) = argBIh m c (ix1 g) + argBHh m c (ix1 g) := by
  rw [b2_eq]
  refine (shapeCast_apply _ _ (ix2 0 g) (ix1 g) ?_).trans rfl
  rw [Shape.rowMajor_val_one, Shape.rowMajor_val_two]
  show g.val = 0 * 2048 + g.val
  omega

/-- The last bias row at column `a` is the caller's last bias at `a`. -/
theorem b3_at (c : Dev nD) (a : Fin 1024) :
    (V m c main_v10 : FVec Ideal S1x1024 .f32) (ix2 0 a) = argBFinal m c (ix1 a) := by
  rw [b3_eq]
  refine shapeCast_apply _ _ (ix2 0 a) (ix1 a) ?_
  rw [Shape.rowMajor_val_one, Shape.rowMajor_val_two]
  show a.val = 0 * 1024 + a.val
  omega

end Cert.KernelIdeal.Entry

end
-- ==== Proof.KernelRun.lean ====
/-
  The kernel program's result.

  After the region the program reshapes the flattened result [32768, 1024] back to [16, 2048, 1024]: entry (b, s, a)
  of what it returns is entry (b·2048 + s, a) of the flattened result, that is, output `a` of the network on row
  b·2048 + s of the flattened input — which is row (b, s) of `x`. With the weights and biases read back through the
  transposes and reshapes that prepared them, the returned array is the specification `G` of the eight arguments.
-/
import proofs.«114582_j7885559955596_1_alg».proof.Proof.Blocks
import proofs.«114582_j7885559955596_1_alg».proof.Proof.EntryArrays

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.RowNet Cert.KernelIdeal.Blocks Cert.KernelIdeal.Entry

variable (m : (ℓ : Loc nD τ sig) → Buf (Elt Ideal) ℓ) (ρ : Dev nD → PrngReg)

/-- The specification at this program's argument arrays. -/
abbrev spec (c : Dev nD) : FVec Ideal S16x2048x1024 .f32 :=
  G (argX m c) (argWInit m c) (argBInit m c) (argWIh m c) (argBIh m c) (argBHh m c) (argWFinal m c) (argBFinal m c)

/-- The flattened result, viewed again as [16, 2048, 1024], is the specification of the arguments. -/
theorem unflatten_eq (c : Dev nD) :
    shapeCast S16x2048x1024
      (rowsNet (V m c main_v0) (V m c main_v2) (V m c main_v7) (V m c main_v4) (V m c main_v9) (V m c main_v6) (V m c main_v10))
      shapeCasts_S32768x1024_S16x2048x1024 = spec m c := by
  funext i
  obtain ⟨b, s, a, rfl⟩ : ∃ (b : Fin 16) (s : Fin 2048) (a : Fin 1024), i = ix3 b s a := ⟨i 0, i 1, i 2, eq_ix3 i⟩
  have hb : b.val < 16 := b.isLt
  have hs : s.val < 2048 := s.isLt
  refine (shapeCast_apply _ _ (ix3 b s a) (ix2 (⟨b.val * 2048 + s.val, by omega⟩ : Fin 32768) a) ?_).trans ?_
  · rw [Shape.rowMajor_val_two, Shape.rowMajor_val_three]
    rfl
  · unfold rowsNet spec G
    refine net_congr (fun k => ?_) (fun k j => ?_) (fun j => ?_) (fun j g => ?_) (fun g => ?_) (fun g a' => ?_) (fun a' => ?_) rfl
    · exact xflat_at m c b s k _ rfl
    · exact w1_at m c k j
    · exact b1_at m c j
    · exact w2_at m c j g
    · exact b2_at m c g
    · exact w3_at m c g a'
    · exact b3_at m c a'

/-- What the operations after the region leave in the program's result: the specification. -/
theorem tail_eq (c : Dev nD) :
    Pipeline.afterTail₀ cfgs (dats m) 0 (V0 m) [hostOps1] c main_v12 = spec m c := by
  unfold Pipeline.afterTail₀
  show StableHlo.after hostOps1 _ (Proc.devRef .tc main_v12) = _
  after_results
  funext i
  show shapeCast S16x2048x1024 (Pipeline.withArrays spec0 c (V0 m c) (fun w => (dats m 0 c).arrAt w cfg0.N) (Proc.devRef .tc main_v11))
    shapeCasts_S32768x1024_S16x2048x1024 i = _
  rw [show Pipeline.withArrays spec0 c (V0 m c) (fun w => (dats m 0 c).arrAt w cfg0.N) (Proc.devRef .tc main_v11)
      = rowsNet (V m c main_v0) (V m c main_v2) (V m c main_v7) (V m c main_v4) (V m c main_v9) (V m c main_v6) (V m c main_v10)
    from (Pipeline.withArrays_arr spec0 launch0.win.arr_inj c _ _ 7).trans (final m c)]
  exact congrFun (unflatten_eq m c) i

/-- THE RUN, READ: every weakly fair execution of the kernel program ends with its result at the specification of
    the arguments, and the arguments unchanged. -/
theorem run : θ_run defs (onTc (τ := τ) (main (F := Ideal))) ⟨m, fun _ => 0, ρ⟩ fun r => ∀ c : Dev nD,
      r.2.mem ((c.tc : Thread nD τ).loc main_v12) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v12 (Pipeline.mem_restRefs_of main_v12 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue

end
-- ==== Proof.RefIsNet.lean ====
/-
  The reference program computes the row network.

  The reference forms, for every (b, s), the inner products of row (b, s) of `x` with the rows of the first weight
  matrix, adds the first bias, takes the maximum with zero; does the same with the second weight matrix, adding the two
  second-layer biases one after the other; and ends with the third product plus the last bias. Each weight matrix is
  contracted along its second axis, that is, read "output coordinate first". Adding two biases one after the other is
  adding their sum, because addition of extended reals is associative. So entry (b, s, a) of its result is output `a`
  of the three-layer network on row (b, s).
-/
import proofs.«114582_j7885559955596_1_alg».proof.Proof.Gen.ReferenceIdeal.Read
import proofs.«114582_j7885559955596_1_alg».proof.Proof.RowNet

noncomputable section

open scoped BigOperators

namespace Cert.ReferenceIdeal.RefValue

open Cert.ReferenceIdeal Cert.ReferenceIdeal.Gen Cert.ReferenceIdeal.Read Idealize.ShloMosaic Idealize.ShloMosaic.ValueIdx Cert.RowNet

/-- The first layer, at (b, s, j). -/
theorem hidden_at (x0 : FVec Ideal S16x2048x1024 .f32) (x1 : FVec Ideal S2048x1024 .f32) (x2 : FVec Ideal S2048 .f32)
    (b : Fin 16) (s : Fin 2048) (j : Fin 2048) :
    val_main_v4 (F := Ideal) x0 x1 x2 (ix3 b s j)
      = hidden (fun k => x0 (ix3 b s k)) (fun k j => x1 (ix2 j k)) (fun j => x2 (ix1 j)) j := by
  have el : ∀ k : Fin 1024, lidx_main_v0 (ix3 b s j) k = ix3 b s k := fun k =>
    funext fun a => Fin.ext (by match a with | ⟨0, _⟩ => rfl | ⟨1, _⟩ => rfl | ⟨2, _⟩ => rfl)
  have er : ∀ k : Fin 1024, ridx_main_v0 (ix3 b s j) k = ix2 j k := fun k =>
    funext fun a => Fin.ext (by match a with | ⟨0, _⟩ => rfl | ⟨1, _⟩ => rfl)
  have eb : idx_main_v1 (idx_main_v2 (ix3 b s j)) = ix1 j :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb]
  rfl

/-- The second layer, at (b, s, g): the two biases are added one after the other, which is adding their sum. -/
theorem recur_at (x0 : FVec Ideal S16x2048x1024 .f32) (x1 : FVec Ideal S2048x1024 .f32) (x2 : FVec Ideal S2048 .f32)
    (x3 : FVec Ideal S2048x2048 .f32) (x4 x5 : FVec Ideal S2048 .f32) (b : Fin 16) (s : Fin 2048) (g : Fin 2048) :
    val_main_v12 (F := Ideal) x0 x1 x2 x3 x4 x5 (ix3 b s g)
      = recur (hidden (fun k => x0 (ix3 b s k)) (fun k j => x1 (ix2 j k)) (fun j => x2 (ix1 j)))
          (fun j g => x3 (ix2 g j)) (fun g => x4 (ix1 g) + x5 (ix1 g)) g := by
  have el : ∀ k : Fin 2048, lidx_main_v5 (ix3 b s g) k = ix3 b s k := fun k =>
    funext fun a => Fin.ext (by match a with | ⟨0, _⟩ => rfl | ⟨1, _⟩ => rfl | ⟨2, _⟩ => rfl)
  have er : ∀ k : Fin 2048, ridx_main_v5 (ix3 b s g) k = ix2 g k := fun k =>
    funext fun a => Fin.ext (by match a with | ⟨0, _⟩ => rfl | ⟨1, _⟩ => rfl)
  have eb4 : idx_main_v6 (idx_main_v7 (ix3 b s g)) = ix1 g :=
    funext fun a => Fin.ext (by match a with | ⟨0, _⟩ => rfl)
  have eb5 : idx_main_v9 (idx_main_v10 (ix3 b s g)) = ix1 g :=
    funext fun a => Fin.ext (by match a with | ⟨0, _⟩ => rfl)
  rw [val_main_v12_apply, val_main_v11_apply, val_main_v8_apply, val_main_v5_apply, val_main_v7_apply, val_main_v6_apply,
    val_main_v10_apply, val_main_v9_apply, val_main_call1_v0_apply, val_main_call1_cst_apply]
  simp only [el, er, eb4, eb5, hidden_at]
  unfold recur
  rw [← add_assoc]
  rfl

/-- The last layer, at (b, s, a): the reference's result is the network's output. -/
theorem out_at (x0 : FVec Ideal S16x2048x1024 .f32) (x1 : FVec Ideal S2048x1024 .f32) (x2 : FVec Ideal S2048 .f32)
    (x3 : FVec Ideal S2048x2048 .f32) (x4 x5 : FVec Ideal S2048 .f32) (x6 : FVec Ideal S1024x2048 .f32)
    (x7 : FVec Ideal S1024 .f32) (b : Fin 16) (s : Fin 2048) (a : Fin 1024) :
    val_main_v16 (F := Ideal) x0 x1 x2 x3 x4 x5 x6 x7 (ix3 b s a)
      = net (fun k => x0 (ix3 b s k)) (fun k j => x1 (ix2 j k)) (fun j => x2 (ix1 j))
          (fun j g => x3 (ix2 g j)) (fun g => x4 (ix1 g) + x5 (ix1 g))
          (fun g a => x6 (ix2 a g)) (fun a => x7 (ix1 a)) a := by
  have el : ∀ k : Fin 2048, lidx_main_v13 (ix3 b s a) k = ix3 b s k := fun k =>
    funext fun a => Fin.ext (by match a with | ⟨0, _⟩ => rfl | ⟨1, _⟩ => rfl | ⟨2, _⟩ => rfl)
  have er : ∀ k : Fin 2048, ridx_main_v13 (ix3 b s a) k = ix2 a k := fun k =>
    funext fun a => Fin.ext (by match a with | ⟨0, _⟩ => rfl | ⟨1, _⟩ => rfl)
  have eb : idx_main_v14 (idx_main_v15 (ix3 b s a)) = ix1 a :=
    funext fun a => Fin.ext (by match a with | ⟨0, _⟩ => rfl)
  rw [val_main_v16_apply, val_main_v13_apply, val_main_v15_apply, val_main_v14_apply]
  simp only [el, er, eb, recur_at]
  rfl

/-- The reference's result array is the specification `G` of its eight arguments. -/
theorem result_eq (x0 : FVec Ideal S16x2048x1024 .f32) (x1 : FVec Ideal S2048x1024 .f32) (x2 : FVec Ideal S2048 .f32)
    (x3 : FVec Ideal S2048x2048 .f32) (x4 x5 : FVec Ideal S2048 .f32) (x6 : FVec Ideal S1024x2048 .f32)
    (x7 : FVec Ideal S1024 .f32) :
    val_main_v16 (F := Ideal) x0 x1 x2 x3 x4 x5 x6 x7 = G x0 x1 x2 x3 x4 x5 x6 x7 := by
  funext i
  obtain ⟨b, s, a, rfl⟩ : ∃ (b : Fin 16) (s : Fin 2048) (a : Fin 1024), i = ix3 b s a := ⟨i 0, i 1, i 2, eq_ix3 i⟩
  exact out_at x0 x1 x2 x3 x4 x5 x6 x7 b s a

end Cert.ReferenceIdeal.RefValue

end
-- ==== Proof.lean ====
/-
  A three-layer network applied row by row: x ↦ relu(x·W_initᵀ + b_init) ↦ relu(·W_ihᵀ + b_ih + b_hh) ↦ ·W_finalᵀ + b_final,
  over x : [16, 2048, 1024].

  The kernel program flattens the 16·2048 rows, transposes the three weight matrices once, adds the two second-layer
  biases once, and sends blocks of 256 rows through three matrix products with the weights held whole; its result is
  reshaped back to [16, 2048, 1024]. The reference contracts each weight matrix along its second axis directly and
  adds the two second-layer biases one after the other. Over the extended reals a change of float format is the
  identity, a matrix product into a zero accumulator is the plain sum of products, and addition is associative, so
  both programs end with the same array: entry (b, s, a) is output `a` of the network on row (b, s) of `x`
  (`Cert.RowNet.G`). Nothing in that comparison needs the inputs to be finite.

  The kernel's result is read off its frame run (each block written is the network on the rows read; the blocks tile
  the array), the reference's off its run operation by operation.
-/
import proofs.«114582_j7885559955596_1_alg».proof.Defs
import proofs.«114582_j7885559955596_1_alg».proof.Proof.Gen.Kernel
import proofs.«114582_j7885559955596_1_alg».proof.Proof.Gen.Kernel.Skeleton
import proofs.«114582_j7885559955596_1_alg».proof.Proof.Gen.Kernel.Launch
import proofs.«114582_j7885559955596_1_alg».proof.Proof.Gen.Kernel.Points
import proofs.«114582_j7885559955596_1_alg».proof.Proof.Gen.Kernel.Frame
import proofs.«114582_j7885559955596_1_alg».proof.Proof.Gen.KernelIdeal
import proofs.«114582_j7885559955596_1_alg».proof.Proof.Gen.KernelIdeal.Skeleton
import proofs.«114582_j7885559955596_1_alg».proof.Proof.Gen.KernelIdeal.Launch
import proofs.«114582_j7885559955596_1_alg».proof.Proof.Gen.KernelIdeal.Points
import proofs.«114582_j7885559955596_1_alg».proof.Proof.Gen.KernelIdeal.Frame
import proofs.«114582_j7885559955596_1_alg».proof.Proof.Gen.ReferenceIdeal
import proofs.«114582_j7885559955596_1_alg».proof.Proof.Gen.Pre_finite_inputs
import proofs.«114582_j7885559955596_1_alg».proof.Proof.Gen.ReferenceIdeal.Run
import proofs.«114582_j7885559955596_1_alg».proof.Proof.Gen.ReferenceIdeal.Read
import proofs.«114582_j7885559955596_1_alg».proof.Proof.KernelRun
import proofs.«114582_j7885559955596_1_alg».proof.Proof.RefIsNet
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : @Cert.frame_Kernel Cert.Kernel.Gen.facts Cert.Pre_finite_inputs.Gen.facts :=
  fun m ρ _ => Cert.Kernel.Gen.frame m ρ

/-- So does the kernel program read over the extended reals. -/
theorem frame_ki : @Cert.frame_KernelIdeal Cert.KernelIdeal.Gen.facts Cert.Pre_finite_inputs.Gen.facts :=
  fun m ρ _ => Cert.KernelIdeal.Gen.frame m ρ

/-- The reference has no kernel: its run, with the result forgotten, is its frame. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the eight arguments both programs end with the specification of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [e0, e1, e2, e3, e4, e5, e6, e7]
  exact (Cert.ReferenceIdeal.Read.val_main_v16_eq _ _ _ _ _ _ _ _).trans (Cert.ReferenceIdeal.RefValue.result_eq _ _ _ _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
